-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8x8192x512 : Shape := ⟨3, ![8, 8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8x8192x512 : S_.BroadcastsInDim S8x8192x512 (![] : Fin 0 → Fin S8x8192x512.rank)
  reducesTo_S8x8192x512_S_d0_1_2 : S8x8192x512.ReducesTo [0, 1, 2] S_

variable [Facts]

def fn_part1 {F : FTy → Type} [FloatOps F] (main_arg4 : FVec F S8192x512 .f32) (main_arg5 : FVec F S8192x512 .f32) (main_v13 : IVec S_ 1) (main_v16 : IVec S8x8192x512 1) : IVec S_ 1 :=
  let main_c_5 : IVec S_ 1 := constantI S_ 1 1#1
  let main_v17 : IVec S_ 1 := (fun x v => Host.reduce IntOp.andi x v reducesTo_S8x8192x512_S_d0_1_2 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  main_v28

def fn {F : FTy → Type} [FloatOps F] (main_arg0 : FVec F S8192x512 .f32) (main_arg1 : FVec F S8x8192x512 .f32) (main_arg2 : FVec F S8x8192x512 .f32) (main_arg3 : FVec F S8x8192x512 .f32) (main_arg4 : FVec F S8192x512 .f32) (main_arg5 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8x8192x512 .f32 := Host.absf main_arg1
  let main_cst_0 : FVec F S_ .f32 := constant S_ .f32 0x7F800000#32
  let main_v5 : FVec F S8x8192x512 .f32 := broadcastInDim S8x8192x512 ![] bcast_S_S8x8192x512 main_cst_0
  let main_v6 : IVec S8x8192x512 1 := cmpf .olt main_v4 main_v5
  let main_c_1 : IVec S_ 1 := constantI S_ 1 1#1
  let main_v7 : IVec S_ 1 := (fun x v => Host.reduce IntOp.andi x v reducesTo_S8x8192x512_S_d0_1_2 h_S_) main_v6 main_c_1
  let main_v8 : IVec S_ 1 := andi main_v3 main_v7
  let main_v9 : FVec F S8x8192x512 .f32 := Host.absf main_arg2
  let main_cst_2 : FVec F S_ .f32 := constant S_ .f32 0x7F800000#32
  let main_v10 : FVec F S8x8192x512 .f32 := broadcastInDim S8x8192x512 ![] bcast_S_S8x8192x512 main_cst_2
  let main_v11 : IVec S8x8192x512 1 := cmpf .olt main_v9 main_v10
  let main_c_3 : IVec S_ 1 := constantI S_ 1 1#1
  let main_v12 : IVec S_ 1 := (fun x v => Host.reduce IntOp.andi x v reducesTo_S8x8192x512_S_d0_1_2 h_S_) main_v11 main_c_3
  let main_v13 : IVec S_ 1 := andi main_v8 main_v12
  let main_v14 : FVec F S8x8192x512 .f32 := Host.absf main_arg3
  let main_cst_4 : FVec F S_ .f32 := constant S_ .f32 0x7F800000#32
  let main_v15 : FVec F S8x8192x512 .f32 := broadcastInDim S8x8192x512 ![] bcast_S_S8x8192x512 main_cst_4
  let main_v16 : IVec S8x8192x512 1 := cmpf .olt main_v14 main_v15
  fn_part1 (F := F) main_arg4 main_arg5 main_v13 main_v16
-- ==== Kernel.lean ====
abbrev S8192x512 : Shape := ⟨2, ![8192, 512]⟩
abbrev S8x8192x512 : Shape := ⟨3, ![8, 8192, 512]⟩
abbrev S1 : Shape := ⟨1, ![1]⟩
abbrev S256x512 : Shape := ⟨2, ![256, 512]⟩
abbrev S8x256x512 : Shape := ⟨3, ![8, 256, 512]⟩
abbrev S1x1 : Shape := ⟨2, ![1, 1]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S8192x512, .f32⟩
  | .hbm, ⟨5, _⟩ => ⟨S8192x512, .f32⟩
  | .hbm, ⟨6, _⟩ => ⟨S1, .f32⟩
  | .local _ .vmem, ⟨0, _⟩ => ⟨S256x512, .f32⟩
  | .local _ .vmem, ⟨1, _⟩ => ⟨S256x512, .f32⟩
  | .local _ .vmem, ⟨2, _⟩ => ⟨S8x256x512, .f32⟩
  | .local _ .vmem, ⟨3, _⟩ => ⟨S8x256x512, .f32⟩
  | .local _ .vmem, ⟨4, _⟩ => ⟨S8x256x512, .f32⟩
  | .local _ .vmem, ⟨5, _⟩ => ⟨S8x256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1, .f32⟩
  | .local _ .vmem, ⟨11, _⟩ => ⟨S1x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v102 : BitVec 1 := Scalar.cmpi .eq arg0 c31_i32
  let v103 : BitVec 32 := Scalar.extui v102
  let c0_i32_42 : BitVec 32 := 0#32
  let v104 : BitVec 1 := Scalar.cmpi .ne v103 c0_i32_42
  v104

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x512_S256x512_0_0 : ∀ a, (![0, 0] : Fin 2 → Nat) a + S256x512.size a ≤ S256x512.size a
  h_S256x512 : 0 < S256x512.numel
  inb_S8x256x512_S8x256x512_0_0_0 : ∀ a, (![0, 0, 0] : Fin 3 → Nat) a + S8x256x512.size a ≤ S8x256x512.size a
  h_S8x256x512 : 0 < S8x256x512.numel
  reduces_S8x256x512_S256x512 : S8x256x512.Reduces [0] S256x512
  reduces_S256x512_S256 : S256x512.Reduces [1] S256
  shapeCasts_S256_S256x1 : S256.ShapeCasts S256x1
  reduces_S256x1_S1 : S256x1.Reduces [0] S1
  shapeCasts_S1_S1x1 : S1.ShapeCasts S1x1
  shapeCasts_S1x1_S1 : S1x1.ShapeCasts S1
  inb_S1_S1_0 : ∀ a, (![0] : Fin 1 → Nat) a + S1.size a ≤ S1.size a
  h_S1 : 0 < S1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S8x8192x512.size a
  hwx0_1 : ∀ i : grid0.Coords, EltTy.bits .f32 = 32 ∨ (Rect.block (s := S8x8192x512) S8x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x512.size a ≤ S8x8192x512.size a
  hwx0_2 : ∀ i : grid0.Coords, EltTy.bits .f32 = 32 ∨ (Rect.block (s := S8x8192x512) S8x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S8192x512.size a
  hwx0_3 : ∀ i : grid0.Coords, EltTy.bits .f32 = 32 ∨ (Rect.block (s := S8192x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S8192x512.size a
  hwx0_4 : ∀ i : grid0.Coords, EltTy.bits .f32 = 32 ∨ (Rect.block (s := S8192x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)

variable [Facts₀]

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8x8192x512 : Shape := ⟨3, ![8, 8192, 512]⟩
abbrev S_ : Shape := ⟨0, ![]⟩
abbrev S8192 : Shape := ⟨1, ![8192]⟩
abbrev S1 : Shape := ⟨1, ![1]⟩

abbrev nBuf : Space → Nat
  | .hbm => 116
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192x512, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x512, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S8192x512, .f32⟩
  | .hbm, ⟨42, _⟩ => ⟨S_, .f32⟩
  | .hbm, ⟨43, _⟩ => ⟨S8192, .f32⟩
  | .hbm, ⟨44, _⟩ => ⟨S8192x512, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x512, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S8192x512, .f32⟩
  | .hbm, ⟨62, _⟩ => ⟨S_, .f32⟩
  | .hbm, ⟨63, _⟩ => ⟨S8192, .f32⟩
  | .hbm, ⟨64, _⟩ => ⟨S8192x512, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x512, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192x512, .f32⟩
  | .hbm, ⟨82, _⟩ => ⟨S_, .f32⟩
  | .hbm, ⟨83, _⟩ => ⟨S8192, .f32⟩
  | .hbm, ⟨84, _⟩ => ⟨S8192x512, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192x512, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S_, .f32⟩
  | .hbm, ⟨94, _⟩ => ⟨S8192, .f32⟩
  | .hbm, ⟨95, _⟩ => ⟨S8192, .f32⟩
  | .hbm, ⟨96, _⟩ => ⟨S8192, .f32⟩
  | .hbm, ⟨97, _⟩ => ⟨S_, .f32⟩
  | .hbm, ⟨98, _⟩ => ⟨S8192, .f32⟩
  | .hbm, ⟨99, _⟩ => ⟨S8192, .f32⟩
  | .hbm, ⟨100, _⟩ => ⟨S8192, .f32⟩
  | .hbm, ⟨101, _⟩ => ⟨S8192, .f32⟩
  | .hbm, ⟨102, _⟩ => ⟨S8192, .f32⟩
  | .hbm, ⟨103, _⟩ => ⟨S8192, .f32⟩
  | .hbm, ⟨104, _⟩ => ⟨S8192, .f32⟩
  | .hbm, ⟨105, _⟩ => ⟨S_, .f32⟩
  | .hbm, ⟨106, _⟩ => ⟨S8192, .f32⟩
  | .hbm, ⟨107, _⟩ => ⟨S8192, .f32⟩
  | .hbm, ⟨108, _⟩ => ⟨S8192, .f32⟩
  | .hbm, ⟨109, _⟩ => ⟨S8192, .f32⟩
  | .hbm, ⟨110, _⟩ => ⟨S_, .f32⟩
  | .hbm, ⟨111, _⟩ => ⟨S_, .f32⟩
  | .hbm, ⟨112, _⟩ => ⟨S1, .f32⟩
  | .hbm, ⟨113, _⟩ => ⟨S_, .f32⟩
  | .hbm, ⟨114, _⟩ => ⟨S1, .f32⟩
  | .hbm, ⟨115, _⟩ => ⟨S1, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_cst_4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_5 : Ref sig .tc := ⟨.hbm, 22, rfl⟩
abbrev main_v10 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_v11 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_v12 : Ref sig .tc := ⟨.hbm, 31, rfl⟩
abbrev main_v13 : Ref sig .tc := ⟨.hbm, 32, rfl⟩
abbrev main_cst_6 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_7 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_8 : Ref sig .tc := ⟨.hbm, 42, rfl⟩
abbrev main_v21 : Ref sig .tc := ⟨.hbm, 43, rfl⟩
abbrev main_call2_v0 : Ref sig .tc := ⟨.hbm, 44, rfl⟩
abbrev main_call2_cst : Ref sig .tc := ⟨.hbm, 45, rfl⟩
abbrev main_call2_v1 : Ref sig .tc := ⟨.hbm, 46, rfl⟩
abbrev main_v22 : Ref sig .tc := ⟨.hbm, 47, rfl⟩
abbrev main_call3_v0 : Ref sig .tc := ⟨.hbm, 48, rfl⟩
abbrev main_call3_cst : Ref sig .tc := ⟨.hbm, 49, rfl⟩
abbrev main_call3_v1 : Ref sig .tc := ⟨.hbm, 50, rfl⟩
abbrev main_v23 : Ref sig .tc := ⟨.hbm, 51, rfl⟩
abbrev main_v24 : Ref sig .tc := ⟨.hbm, 52, rfl⟩
abbrev main_cst_9 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_10 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_11 : Ref sig .tc := ⟨.hbm, 62, rfl⟩
abbrev main_v32 : Ref sig .tc := ⟨.hbm, 63, rfl⟩
abbrev main_call4_v0 : Ref sig .tc := ⟨.hbm, 64, rfl⟩
abbrev main_call4_cst : Ref sig .tc := ⟨.hbm, 65, rfl⟩
abbrev main_call4_v1 : Ref sig .tc := ⟨.hbm, 66, rfl⟩
abbrev main_v33 : Ref sig .tc := ⟨.hbm, 67, rfl⟩
abbrev main_call5_v0 : Ref sig .tc := ⟨.hbm, 68, rfl⟩
abbrev main_call5_cst : Ref sig .tc := ⟨.hbm, 69, rfl⟩
abbrev main_call5_v1 : Ref sig .tc := ⟨.hbm, 70, rfl⟩
abbrev main_v34 : Ref sig .tc := ⟨.hbm, 71, rfl⟩
abbrev main_v35 : Ref sig .tc := ⟨.hbm, 72, rfl⟩
abbrev main_cst_12 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_13 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_14 : Ref sig .tc := ⟨.hbm, 82, rfl⟩
abbrev main_v43 : Ref sig .tc := ⟨.hbm, 83, rfl⟩
abbrev main_call6_v0 : Ref sig .tc := ⟨.hbm, 84, rfl⟩
abbrev main_call6_cst : Ref sig .tc := ⟨.hbm, 85, rfl⟩
abbrev main_call6_v1 : Ref sig .tc := ⟨.hbm, 86, rfl⟩
abbrev main_v44 : Ref sig .tc := ⟨.hbm, 87, rfl⟩
abbrev main_call7_v0 : Ref sig .tc := ⟨.hbm, 88, rfl⟩
abbrev main_call7_cst : Ref sig .tc := ⟨.hbm, 89, rfl⟩
abbrev main_call7_v1 : Ref sig .tc := ⟨.hbm, 90, rfl⟩
abbrev main_v45 : Ref sig .tc := ⟨.hbm, 91, rfl⟩
abbrev main_v46 : Ref sig .tc := ⟨.hbm, 92, rfl⟩
abbrev main_cst_15 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_16 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_17 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_18 : Ref sig .tc := ⟨.hbm, 110, rfl⟩
abbrev main_v61 : Ref sig .tc := ⟨.hbm, 111, rfl⟩
abbrev main_v62 : Ref sig .tc := ⟨.hbm, 112, rfl⟩
abbrev main_cst_19 : Ref sig .tc := ⟨.hbm, 113, rfl⟩
abbrev main_v63 : Ref sig .tc := ⟨.hbm, 114, rfl⟩
abbrev main_v64 : Ref sig .tc := ⟨.hbm, 115, rfl⟩

abbrev nD : Nat := 1
abbrev τ : Topo := Topo.v7x

variable {F : FTy → Type} [FloatOps F]

class Facts₀ : Prop where
  reducesTo_S8x8192x512_S8192x512_d0 : S8x8192x512.ReducesTo [0] S8192x512
  h_S_ : 0 < S_.numel
  bcast_S_S8192x512 : S_.BroadcastsInDim S8192x512 (![] : Fin 0 → Fin S8192x512.rank)
  reducesTo_S8192x512_S8192_d1 : S8192x512.ReducesTo [1] S8192
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)

variable [Facts₀]

class Facts : Prop extends Facts₀ where

variable [Facts]
-- ==== Proof.RowLoss.lean ====
/-
  The contrastive row loss on the extended reals, and its total over the 8192 rows.

  A row has a base slice `b`, eight positive slices `p j`, eight cross slices `q j` and two negative slices `n₁`, `n₂`, each of 512
  lanes. The positive and the cross prototype are the lane-by-lane means of the eight slices (their sum over 8). A cosine of the base
  slice with a slice `y` is ⟨b, y⟩ / max (‖b‖ · ‖y‖, ε); it is divided by the temperature 1 and exponentiated. With e₁, e₃ the
  exponentials for the two prototypes and e₄, e₅ those for the two negatives, the row's loss is
  −log ((e₁ + e₃) / ((e₄ + e₅) + (e₁ + e₃)) + ε). The total is the sum of the 8192 rows' losses divided by 8192.

  Nothing here asks the entries to be finite: every operation is the extended reals' own, and the only law used between two
  arrangements of the total is that their addition is commutative and associative — the sum over 8192 rows is the sum over 32
  consecutive runs of 256 rows of each run's sum — together with `0 - x = -x`.
-/
import Idealize.ShloMosaic.PureOps.Ideal
import Idealize.ShloMosaic.PureOps.Ideal.Laws
import Idealize.ShloMosaic.Lib.ValueIdx

noncomputable section

open scoped BigOperators

namespace Cert.RowLoss

open Idealize.ShloMosaic Idealize.ShloMosaic.ValueIdx

/-- The lane-by-lane mean of eight slices: their sum divided by the word of 8. -/
def mean8 (y : Fin 8 → Fin 512 → EReal) (k : Fin 512) : EReal :=
  Ideal.div (∑ j : Fin 8, y j k) (Ideal.ofBits .f32 0x41000000#32)

/-- The exponential of the cosine of two slices over the temperature 1: the inner product over the larger of the product of the two
    norms and the word ε, over the word of 1, exponentiated. -/
def expCos (a y : Fin 512 → EReal) : EReal :=
  Ideal.exp (Ideal.div
    (Ideal.div (∑ k : Fin 512, a k * y k)
      (max (Ideal.sqrt (∑ k : Fin 512, a k * a k) * Ideal.sqrt (∑ k : Fin 512, y k * y k)) (Ideal.ofBits .f32 0x322BCC77#32)))
    (Ideal.ofBits .f32 0x3F800000#32))

/-- The loss from the four exponentials: minus the logarithm of the positive share plus ε. -/
def lossOf (e₁ e₃ e₄ e₅ : EReal) : EReal :=
  -Ideal.log (Ideal.div (e₁ + e₃) ((e₄ + e₅) + (e₁ + e₃)) + Ideal.ofBits .f32 0x322BCC77#32)

/-- A row's loss from its slices. -/
def rowLoss (b : Fin 512 → EReal) (p q : Fin 8 → Fin 512 → EReal) (n₁ n₂ : Fin 512 → EReal) : EReal :=
  lossOf (expCos b (mean8 p)) (expCos b (mean8 q)) (expCos b n₁) (expCos b n₂)

/-- The loss of row `r` of the five argument arrays. -/
def lossAt (B : (⟨2, ![8192, 512]⟩ : Shape).Idx → EReal) (P Q : (⟨3, ![8, 8192, 512]⟩ : Shape).Idx → EReal)
    (N₁ N₂ : (⟨2, ![8192, 512]⟩ : Shape).Idx → EReal) (r : Fin 8192) : EReal :=
  rowLoss (fun k => B (ix2 r k)) (fun j k => P (ix3 j r k)) (fun j k => Q (ix3 j r k)) (fun k => N₁ (ix2 r k)) (fun k => N₂ (ix2 r k))

/-- The result: at its one index, the sum of the rows' losses over the word of 8192. -/
def total (B : (⟨2, ![8192, 512]⟩ : Shape).Idx → EReal) (P Q : (⟨3, ![8, 8192, 512]⟩ : Shape).Idx → EReal)
    (N₁ N₂ : (⟨2, ![8192, 512]⟩ : Shape).Idx → EReal) : (⟨1, ![1]⟩ : Shape).Idx → EReal :=
  fun _ => Ideal.div (∑ r : Fin 8192, lossAt B P Q N₁ N₂ r) (Ideal.ofBits .f32 0x46000000#32)

/-- Zero minus an extended real is its negative, at the infinities too. -/
theorem zero_sub_ereal (x : EReal) : (0 : EReal) - x = -x := by
  rw [sub_eq_add_neg, zero_add]

/-- A sum over the 8192 rows is the sum, over the 32 consecutive runs of 256 rows, of each run's sum: addition is commutative and
    associative, nothing more. -/
theorem sum_rows_by_runs {M : Type*} [AddCommMonoid M] (f : ℕ → M) :
    ∑ r : Fin 8192, f r.val = ∑ s ∈ Finset.range 32, ∑ q : Fin 256, f (256 * s + q.val) := by
  rw [← Fin.sum_univ_eq_sum_range (fun s => ∑ q : Fin 256, f (256 * s + q.val)) 32, ← Fintype.sum_prod_type']
  refine (Equiv.sum_comp (finProdFinEquiv : Fin 32 × Fin 256 ≃ Fin 8192) (fun r => f r.val)).symm.trans ?_
  refine Fintype.sum_congr _ _ fun x => ?_
  show f (x.2.val + 256 * x.1.val) = f (256 * x.1.val + x.2.val)
  rw [Nat.add_comm]

end Cert.RowLoss

end
-- ==== Proof.LibRowOps.lean ====
/-
  A lane reduction kept as a column, and a column spread back over the lanes, read at an index on the extended reals.

  For a rank-2 vector `v` of `R` rows and `C` lanes: the sum (or, from a given word, the maximum) of each row over its lanes,
  cast from `[R]` to the column shape `[R, 1]`, holds at `(p, q)` the sum (the maximum) of row `p`; a column `[R, 1]` broadcast
  to `[R, C]` holds at `(p, k)` the column's entry of row `p`. The host's forms of the same (a `reduce` over axis 1, a
  `broadcast_in_dim` on axis 0 or on both axes) read likewise. All are stated at coordinates `p : Fin R`, `k : Fin C`, so that
  they rewrite a term at `ix2 p k` whatever the literal extents.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.RowOps

open Idealize.ShloMosaic Idealize.ShloMosaic.ValueIdx

variable {R C : ℕ}

/-- The exponential, the square root and the absolute value of a vector read entry by entry. -/
theorem exp_apply {s : Shape} (v : FVec Ideal s .f32) (i : s.Idx) : exp v i = Ideal.exp (v i) := rfl
theorem sqrt_apply {s : Shape} (v : FVec Ideal s .f32) (i : s.Idx) : sqrt v i = Ideal.sqrt (v i) := rfl
theorem absf_apply {s : Shape} (v : FVec Ideal s .f32) (i : s.Idx) : absf v i = FloatOps.absf (F := Ideal) (φ := .f32) (v i) := rfl

/-- Row `p` with lane `k` put back on axis 1 is the index `(p, k)`. -/
theorem lift_lane (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- The column shape's entry `(p, q)` sits at row-major position `p`, as entry `p` of the vector does. -/
theorem col_pos (p : Fin R) (q : Fin 1) :
    ((⟨1, ![R]⟩ : Shape).rowMajor (ix1 p)).val = ((⟨2, ![R, 1]⟩ : Shape).rowMajor (ix2 p q)).val := by
  rw [Shape.rowMajor_val_one, Shape.rowMajor_val_two]
  have := q.isLt
  show p.val = p.val * 1 + q.val
  omega

/-- A vector cast to a column reads, at `(p, q)`, its entry `p`. -/
theorem castCol_apply {α : Type} (x : (⟨1, ![R]⟩ : Shape).Idx → α) (hc : (⟨1, ![R]⟩ : Shape).ShapeCasts (⟨2, ![R, 1]⟩ : Shape))
    (p : Fin R) (q : Fin 1) : shapeCast (⟨2, ![R, 1]⟩ : Shape) x hc (ix2 p q) = x (ix1 p) :=
  shapeCast_apply x hc (ix2 p q) (ix1 p) (col_pos p q)

/-- The lane sum of a vector, read at row `p`. -/
theorem laneSum_apply (v : FVec Ideal (⟨2, ![R, C]⟩ : Shape) .f32) (acc : BitVec 32)
    (h : (⟨2, ![R, C]⟩ : Shape).Reduces [1] (⟨1, ![R]⟩ : Shape)) (hφ : FKind.Formats .f32) (hacc : acc = FKind.add.neutral .f32 hφ)
    (p : Fin R) : multiReduction .add [1] (⟨1, ![R]⟩ : Shape) v acc h hφ hacc (ix1 p) = ∑ k : Fin C, v (ix2 p k) := by
  rw [Ideal.multiReduction_add_single]
  show ∑ k : Fin C, v (h.lift (ix1 p) k) = _
  exact Finset.sum_congr rfl fun k _ => congrArg v (lift_lane h p k)

/-- The lane maximum of a vector from the word `acc`, read at row `p`. -/
theorem laneMax_apply (v : FVec Ideal (⟨2, ![R, C]⟩ : Shape) .f32) (acc : BitVec 32)
    (h : (⟨2, ![R, C]⟩ : Shape).Reduces [1] (⟨1, ![R]⟩ : Shape)) (hφ : FKind.Formats .f32) (hacc : acc = FKind.maximumf.neutral .f32 hφ)
    (p : Fin R) : multiReduction .maximumf [1] (⟨1, ![R]⟩ : Shape) v acc h hφ hacc (ix1 p)
      = (Finset.univ : Finset (Fin C)).fold max (Ideal.ofBits .f32 acc) (fun k => v (ix2 p k)) := by
  rw [Ideal.multiReduction_maximumf_single]
  show (Finset.univ : Finset (Fin C)).fold max (Ideal.ofBits .f32 acc) (v ∘ h.lift (ix1 p)) = _
  exact congrArg (fun f => (Finset.univ : Finset (Fin C)).fold max (Ideal.ofBits .f32 acc) f)
    (funext fun k => congrArg v (lift_lane h p k))

/-- A column spread over the lanes reads, at `(p, k)`, the column's entry of row `p`. -/
theorem spreadCol_apply {α : Type} (col : (⟨2, ![R, 1]⟩ : Shape).Idx → α)
    (hb : (⟨2, ![R, 1]⟩ : Shape).Broadcasts (⟨2, ![R, C]⟩ : Shape)) (p : Fin R) (k : Fin C) :
    broadcastTo (⟨2, ![R, C]⟩ : Shape) col hb (ix2 p k) = col (ix2 p (0 : Fin 1)) :=
  broadcastTo_apply col hb (ix2 p k) (ix2 p (0 : Fin 1)) (fun a => by
    match a with
    | ⟨0, _⟩ =>
      show p.val = if R = 1 then 0 else p.val
      split
      · have := p.isLt; omega
      · rfl
    | ⟨1, _⟩ =>
      show (0 : Fin 1).val = if (1 : ℕ) = 1 then 0 else k.val
      simp)

/-- The host's reduce with a maximum body over the lanes, from the rank-zero initial value, read at row `p`. -/
theorem hostLaneMax_apply {u : Shape} (x : FVec Ideal (⟨2, ![R, C]⟩ : Shape) .f32) (init : u.Idx → Ideal .f32)
    (h' : (⟨2, ![R, C]⟩ : Shape).ReducesTo [1] (⟨1, ![R]⟩ : Shape)) (h : (⟨2, ![R, C]⟩ : Shape).Reduces [1] (⟨1, ![R]⟩ : Shape))
    (hu : 0 < u.numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  show (Finset.univ : Finset (Fin C)).fold max (init (Shape.Idx.first hu)) (x ∘ h.lift (ix1 p)) = _
  exact congrArg (fun f => (Finset.univ : Finset (Fin C)).fold max (init (Shape.Idx.first hu)) f)
    (funext fun k => congrArg x (lift_lane h p k))

end Cert.RowOps

end
-- ==== Proof.LibColOps.lean ====
/-
  Reductions over the leading axis, read at an index on the extended reals.

  For a rank-3 vector `v` of `K` slices of `R` rows and `C` lanes, the sum over the slices holds at `(p, k)` the sum over `j` of
  `v (j, p, k)`. For a column `[R, 1]`, the sum over its rows, a vector of one entry, holds the sum over `p` of the column's entry of
  row `p`. A one-entry vector cast to the one-entry matrix and back reads its one entry. All are stated at coordinates, so that they
  rewrite a term at `ix2 p k` or `ix1 q` whatever the literal extents.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ColOps

open Idealize.ShloMosaic Idealize.ShloMosaic.ValueIdx

variable {K R C : ℕ}

/-- The logarithm of a vector read entry by entry. -/
theorem log_apply {s : Shape} (v : FVec Ideal s .f32) (i : s.Idx) : log v i = Ideal.log (v i) := rfl

/-- Row `p`, lane `k` with slice `j` put back on axis 0 is the index `(j, p, k)`. -/
theorem lift_slice (h : (⟨3, ![K, R, C]⟩ : Shape).Reduces [0] (⟨2, ![R, C]⟩ : Shape)) (p : Fin R) (k : Fin C)
    (j : Fin ((⟨3, ![K, R, C]⟩ : Shape).size 0)) : h.lift (ix2 p k) j = ix3 (⟨j.val, j.isLt⟩ : Fin K) p k := by
  funext c; apply Fin.ext
  fin_cases c <;> rfl

/-- The sum over the slices of a rank-3 vector, read at row `p`, lane `k`. -/
theorem sliceSum_apply (v : FVec Ideal (⟨3, ![K, R, C]⟩ : Shape) .f32) (acc : BitVec 32)
    (h : (⟨3, ![K, R, C]⟩ : Shape).Reduces [0] (⟨2, ![R, C]⟩ : Shape)) (hφ : FKind.Formats .f32) (hacc : acc = FKind.add.neutral .f32 hφ)
    (p : Fin R) (k : Fin C) :
    multiReduction .add [0] (⟨2, ![R, C]⟩ : Shape) v acc h hφ hacc (ix2 p k) = ∑ j : Fin K, v (ix3 j p k) := by
  rw [Ideal.multiReduction_add_single]
  show ∑ j : Fin K, v (h.lift (ix2 p k) j) = _
  exact Finset.sum_congr rfl fun j _ => congrArg v (lift_slice h p k j)

/-- The one entry `q` with row `p` put back on axis 0 is the column's index `(p, q)`. -/
theorem lift_row (h : (⟨2, ![R, 1]⟩ : Shape).Reduces [0] (⟨1, ![1]⟩ : Shape)) (q : Fin 1)
    (p : Fin ((⟨2, ![R, 1]⟩ : Shape).size 0)) : h.lift (ix1 q) p = ix2 (⟨p.val, p.isLt⟩ : Fin R) q := by
  funext c; apply Fin.ext
  fin_cases c <;> rfl

/-- The sum of a column over its rows, read at its one entry. -/
theorem colSum_apply (v : FVec Ideal (⟨2, ![R, 1]⟩ : Shape) .f32) (acc : BitVec 32)
    (h : (⟨2, ![R, 1]⟩ : Shape).Reduces [0] (⟨1, ![1]⟩ : Shape)) (hφ : FKind.Formats .f32) (hacc : acc = FKind.add.neutral .f32 hφ)
    (q : Fin 1) :
    multiReduction .add [0] (⟨1, ![1]⟩ : Shape) v acc h hφ hacc (ix1 q) = ∑ p : Fin R, v (ix2 p q) := by
  rw [Ideal.multiReduction_add_single]
  show ∑ p : Fin R, v (h.lift (ix1 q) p) = _
  exact Finset.sum_congr rfl fun p _ => congrArg v (lift_row h q p)

/-- The one-entry matrix cast to the one-entry vector reads, at its entry, the matrix's entry. -/
theorem castOne_apply {α : Type} (x : (⟨2, ![1, 1]⟩ : Shape).Idx → α) (hc : (⟨2, ![1, 1]⟩ : Shape).ShapeCasts (⟨1, ![1]⟩ : Shape))
    (q : Fin 1) : shapeCast (⟨1, ![1]⟩ : Shape) x hc (ix1 q) = x (ix2 (0 : Fin 1) q) :=
  shapeCast_apply x hc (ix1 q) (ix2 (0 : Fin 1) q) (by
    rw [Shape.rowMajor_val_one, Shape.rowMajor_val_two]
    show (0 : Fin 1).val * 1 + q.val = q.val
    simp)

end Cert.ColOps

end
-- ==== Proof.KernelBlock.lean ====
/-
  One grid point's arithmetic, read on the extended reals.

  At a grid point the body holds a block of 256 rows of each argument: the base block `x0`, the eight positive and the eight cross
  slices `x1`, `x2`, the two negative blocks `x3`, `x4`. Each intermediate column `[256, 1]` of the body holds, at row `p`, the
  quantity of the specification for that row: the exponentiated cosines of the base row with the positive prototype, the cross
  prototype and the first negative; for the second negative its inner product with the base row and the product of the two norms,
  which the last stretch of the body divides and exponentiates. The value the body stores into the running total is the total it
  found plus the sum over the block's 256 rows of the row losses, and the value it stores into the result at the last point is the
  running total over the word of 8192. The body writes its minus sign as `0 - x`, which is `-x` on every extended real.
-/
import proofs.«178410_j83141976916016_1_alg».proof.Proof.Gen.KernelIdeal.Skeleton
import proofs.«178410_j83141976916016_1_alg».proof.Proof.RowLoss
import proofs.«178410_j83141976916016_1_alg».proof.Proof.LibRowOps
import proofs.«178410_j83141976916016_1_alg».proof.Proof.LibColOps

noncomputable section

open scoped BigOperators

namespace Cert.KernelIdeal.Block

open Cert.KernelIdeal Cert.KernelIdeal.Gen Idealize.ShloMosaic Idealize.ShloMosaic.ValueIdx
open Cert.RowLoss Cert.RowOps Cert.ColOps

/-- The mean over the eight slices as the body computes it, at row `p`, lane `k`. -/
theorem mean_apply (v : FVec Ideal S8x256x512 .f32) (h : S8x256x512.Reduces [0] S256x512) (hφ : FKind.Formats .f32)
    (hacc : (0x00000000#32 : BitVec 32) = FKind.add.neutral .f32 hφ) (p : Fin 256) (k : Fin 512) :
    divf (multiReduction .add [0] S256x512 v 0x00000000#32 h hφ hacc) (broadcast S256x512 (Scalar.ofBits (F := Ideal) .f32 0x41000000#32))
      (ix2 p k) = mean8 (fun j k => v (ix3 j p k)) k := by
  rw [divf_apply, sliceSum_apply, broadcast_apply]
  rfl

/-- An inner product of two blocks' rows kept as a column, at row `p`. -/
theorem dotCol_apply (a y : FVec Ideal S256x512 .f32) (h : S256x512.Reduces [1] S256) (hc : S256.ShapeCasts S256x1)
    (hφ : FKind.Formats .f32) (hacc : (0x00000000#32 : BitVec 32) = FKind.add.neutral .f32 hφ) (p : Fin 256) (q : Fin 1) :
    shapeCast S256x1 (multiReduction .add [1] S256 (mulf a y) 0x00000000#32 h hφ hacc) hc (ix2 p q)
      = ∑ k : Fin 512, a (ix2 p k) * y (ix2 p k) := by
  rw [castCol_apply, laneSum_apply]
  rfl

/-- The column of exponentiated cosines of two blocks' rows, as the body computes it, at row `p`. -/
theorem expCosCol_apply (a y : FVec Ideal S256x512 .f32) (h : S256x512.Reduces [1] S256) (hc : S256.ShapeCasts S256x1)
    (hφ : FKind.Formats .f32) (hacc : (0x00000000#32 : BitVec 32) = FKind.add.neutral .f32 hφ) (p : Fin 256) (q : Fin 1) :
    exp (divf (divf (shapeCast S256x1 (multiReduction .add [1] S256 (mulf a y) 0x00000000#32 h hφ hacc) hc)
        (maximumf (mulf (sqrt (shapeCast S256x1 (multiReduction .add [1] S256 (mulf a a) 0x00000000#32 h hφ hacc) hc))
            (sqrt (shapeCast S256x1 (multiReduction .add [1] S256 (mulf y y) 0x00000000#32 h hφ hacc) hc)))
          (broadcast S256x1 (Scalar.ofBits (F := Ideal) .f32 0x322BCC77#32))))
      (broadcast S256x1 (Scalar.ofBits (F := Ideal) .f32 0x3F800000#32))) (ix2 p q)
      = expCos (fun k => a (ix2 p k)) (fun k => y (ix2 p k)) := by
  rw [exp_apply, divf_apply, divf_apply, maximumf_apply, mulf_apply, sqrt_apply, sqrt_apply, dotCol_apply, dotCol_apply,
    dotCol_apply, broadcast_apply, broadcast_apply]
  rfl

/-! ## The payloads at a row -/

/-- The cross prototype's block: at row `p`, lane `k`, the mean of the eight cross slices. -/
theorem pay4_apply (x2 : Vec Ideal S8x256x512 .f32) (p : Fin 256) (k : Fin 512) :
    k0_pay4 x2 (ix2 p k) = mean8 (fun j k => x2 (ix3 j p k)) k := by
  unfold k0_pay4
  exact mean_apply x2 _ _ _ p k

/-- The first column: the exponentiated cosine of the base row with the positive prototype. -/
theorem pay5_apply (x0 : Vec Ideal S256x512 .f32) (x1 : Vec Ideal S8x256x512 .f32) (p : Fin 256) (q : Fin 1) :
    k0_pay5 x0 x1 (ix2 p q) = expCos (fun k => x0 (ix2 p k)) (mean8 (fun j k => x1 (ix3 j p k))) := by
  unfold k0_pay5
  refine (expCosCol_apply x0 _ _ _ _ _ p q).trans ?_
  exact congrArg (expCos _) (funext fun k => mean_apply x1 _ _ _ p k)

/-- The second column: the exponentiated cosine of the base row with the cross prototype. -/
theorem pay7_apply (x0 : Vec Ideal S256x512 .f32) (x2 : Vec Ideal S8x256x512 .f32) (p : Fin 256) (q : Fin 1) :
    k0_pay7 x0 (k0_pay4 x2) (k0_pay6 x0 x2) (ix2 p q) = expCos (fun k => x0 (ix2 p k)) (mean8 (fun j k => x2 (ix3 j p k))) := by
  unfold k0_pay7 k0_pay6
  refine (expCosCol_apply x0 (k0_pay4 x2) _ _ _ _ p q).trans ?_
  exact congrArg (expCos _) (funext fun k => pay4_apply x2 p k)

/-- The third column: the exponentiated cosine of the base row with the first negative's row. -/
theorem pay8_apply (x0 x3 : Vec Ideal S256x512 .f32) (p : Fin 256) (q : Fin 1) :
    k0_pay8 x0 x3 (ix2 p q) = expCos (fun k => x0 (ix2 p k)) (fun k => x3 (ix2 p k)) := by
  unfold k0_pay8
  exact expCosCol_apply x0 x3 _ _ _ _ p q

/-- The inner product of the base row with the second negative's row. -/
theorem pay9_apply (x0 x4 : Vec Ideal S256x512 .f32) (p : Fin 256) (q : Fin 1) :
    k0_pay9 x0 x4 (ix2 p q) = ∑ k : Fin 512, x0 (ix2 p k) * x4 (ix2 p k) := by
  unfold k0_pay9
  exact dotCol_apply x0 x4 _ _ _ _ p q

/-- The product of the base row's norm and the second negative's row's norm. -/
theorem pay10_apply (x0 x4 : Vec Ideal S256x512 .f32) (p : Fin 256) (q : Fin 1) :
    k0_pay10 x0 x4 (ix2 p q)
      = Ideal.sqrt (∑ k : Fin 512, x0 (ix2 p k) * x0 (ix2 p k)) * Ideal.sqrt (∑ k : Fin 512, x4 (ix2 p k) * x4 (ix2 p k)) := by
  unfold k0_pay10
  exact congrArg₂ (· * ·) (congrArg Ideal.sqrt (dotCol_apply x0 x0 _ _ _ _ p q)) (congrArg Ideal.sqrt (dotCol_apply x4 x4 _ _ _ _ p q))

/-- The floor under the last cosine's denominator, at every row. -/
theorem pay11_apply (p : Fin 256) (q : Fin 1) : k0_pay11 (F := Ideal) (ix2 p q) = Ideal.ofBits .f32 0x322BCC77#32 := rfl

/-- The reset value of the running total is zero. -/
theorem pay3_apply (a b : Fin 1) : k0_pay3 (F := Ideal) (ix2 a b) = 0 := by
  unfold k0_pay3
  rw [shapeCast_self, broadcast_apply]
  exact Ideal.ofBits_zero_f32

/-- The value stored into the result: the running total over the word of 8192. -/
theorem pay2_apply (acc : Vec Ideal S1x1 .f32) (q : Fin 1) :
    k0_pay2 acc (ix1 q) = Ideal.div (acc (ix2 (0 : Fin 1) q)) (Ideal.ofBits .f32 0x46000000#32) := by
  unfold k0_pay2
  rw [divf_apply, castOne_apply, broadcast_apply]
  rfl

/-- The value stored into the running total, from the body's six columns and the total it found: that total plus the sum over the
    block's rows of the loss each row's four exponentials give — the last of them finished here from its inner product and norm
    product —, the sign `0 - x` read as `-x`. -/
theorem pay1_apply (v31 v49 v67 v70 v79 v80 : FVec Ideal S256x1 .f32) (acc : Vec Ideal S1x1 .f32) :
    k0_pay1 v31 v49 v67 v70 v79 v80 acc (ix2 (0 : Fin 1) (0 : Fin 1))
      = acc (ix2 (0 : Fin 1) (0 : Fin 1)) + ∑ p : Fin 256, lossOf (v31 (ix2 p 0)) (v49 (ix2 p 0)) (v67 (ix2 p 0))
          (Ideal.exp (Ideal.div (Ideal.div (v70 (ix2 p 0)) (max (v79 (ix2 p 0)) (v80 (ix2 p 0)))) (Ideal.ofBits .f32 0x3F800000#32))) := by
  unfold k0_pay1
  rw [shapeCast_self, addf_apply, castCol_apply]
  refine congrArg (acc (ix2 (0 : Fin 1) (0 : Fin 1)) + ·) ((colSum_apply _ _ _ _ _ (0 : Fin 1)).trans (Finset.sum_congr rfl fun p _ => ?_))
  show Ideal.ofBits .f32 0x00000000#32 - _ = _
  rw [Ideal.ofBits_zero_f32, zero_sub_ereal]
  rfl

/-- ONE POINT'S UPDATE. From the five blocks and the total found, the body stores the total plus the sum over the block's 256 rows of
    the row losses. -/
theorem update_apply (x0 x3 x4 : Vec Ideal S256x512 .f32) (x1 x2 : Vec Ideal S8x256x512 .f32) (acc : Vec Ideal S1x1 .f32) :
    k0_pay1 (k0_pay5 x0 x1) (k0_pay7 x0 (k0_pay4 x2) (k0_pay6 x0 x2)) (k0_pay8 x0 x3) (k0_pay9 x0 x4) (k0_pay10 x0 x4) k0_pay11 acc
        (ix2 (0 : Fin 1) (0 : Fin 1))
      = acc (ix2 (0 : Fin 1) (0 : Fin 1)) + ∑ p : Fin 256, rowLoss (fun k => x0 (ix2 p k)) (fun j k => x1 (ix3 j p k))
          (fun j k => x2 (ix3 j p k)) (fun k => x3 (ix2 p k)) (fun k => x4 (ix2 p k)) := by
  rw [pay1_apply]
  refine congrArg (acc (ix2 (0 : Fin 1) (0 : Fin 1)) + ·) (Finset.sum_congr rfl fun p _ => ?_)
  rw [pay5_apply, pay7_apply, pay8_apply, pay9_apply, pay10_apply, pay11_apply]
  rfl

end Cert.KernelIdeal.Block

end
-- ==== Proof.KernelPieces.lean ====
/-
  What each case of the body leaves behind, as the body's own arithmetic.

  The body meets three cases over the grid. At the first point it resets the running total to zero, reads it back and stores the
  update over it; at a middle point it stores the update over the total the point before left; at the last point it does the
  same and then stores, into the result's buffer, the stored total over the word of 8192. Each buffer ends holding the value of the
  last store that covers it, with every load of a whole buffer reading that buffer's contents — at any float instance.
-/
import proofs.«178410_j83141976916016_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The update the body stores into the running total, from the five blocks and the total it loaded. -/
abbrev update (x0 : Vec F S256x512 .f32) (x1 : Vec F S8x256x512 .f32) (x2 : Vec F S8x256x512 .f32) (x3 : Vec F S256x512 .f32) (x4 : Vec F S256x512 .f32) (acc : Vec F S1x1 .f32) : Vec F S1x1 .f32 :=
  k0_pay1 (k0_pay5 x0 x1) (k0_pay7 x0 (k0_pay4 x2) (k0_pay6 x0 x2)) (k0_pay8 x0 x3) (k0_pay9 x0 x4) (k0_pay10 x0 x4) k0_pay11 acc

/-- At the first point the running total ends at the update over the reset value. -/
theorem total_first (c : Dev nD) (i : grid0.Coords) (arg1 : Memref sig .tc .vmem S256x512 .f32) (harg1 : arg1.IsWhole) (arg2 : Memref sig .tc .vmem S8x256x512 .f32) (harg2 : arg2.IsWhole) (arg3 : Memref sig .tc .vmem S8x256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1 .f32) (harg6 : arg6.IsWhole) (arg7 : Memref sig .tc .vmem S1x1 .f32) (harg7 : arg7.IsWhole) (hc0 : cond0_0 i) (hc1 : ¬cond0_1 i) (x0 : Vec F S256x512 .f32) (x1 : Vec F S8x256x512 .f32) (x2 : Vec F S8x256x512 .f32) (x3 : Vec F S256x512 .f32) (x4 : Vec F S256x512 .f32) :
    sout0_A_0 c i arg1 harg1 arg2 harg2 arg3 harg3 arg4 harg4 arg5 harg5 arg6 harg6 arg7 harg7 hc0 hc1 x0 x1 x2 x3 x4 = update x0 x1 x2 x3 x4 k0_pay3 := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  rw [View.canon_cons_unit_zero (S := S1x1) hz2]
  simp only [View.readAt_eq_ld, harg1.read_unread, harg2.read_unread, harg3.read_unread, harg4.read_unread, harg5.read_unread, harg7.read_unread, View.ld_unit_zero (S := S256x512) hz2, View.ld_unit_zero (S := S8x256x512) hz3, View.ld_unit_zero (S := S1x1) hz2, View.readCov_unit_zero (S := S1x1) _ hz2]

/-- At a middle point the running total ends at the update over what the point before left. -/
theorem total_middle (c : Dev nD) (i : grid0.Coords) (arg1 : Memref sig .tc .vmem S256x512 .f32) (harg1 : arg1.IsWhole) (arg2 : Memref sig .tc .vmem S8x256x512 .f32) (harg2 : arg2.IsWhole) (arg3 : Memref sig .tc .vmem S8x256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1 .f32) (harg6 : arg6.IsWhole) (arg7 : Memref sig .tc .vmem S1x1 .f32) (harg7 : arg7.IsWhole) (hc0 : ¬cond0_0 i) (hc1 : ¬cond0_1 i) (x0 : Vec F S256x512 .f32) (x1 : Vec F S8x256x512 .f32) (x2 : Vec F S8x256x512 .f32) (x3 : Vec F S256x512 .f32) (x4 : Vec F S256x512 .f32) (xs0 : Vec F S1x1 .f32) :
    sout0_B_0 c i arg1 harg1 arg2 harg2 arg3 harg3 arg4 harg4 arg5 harg5 arg6 harg6 arg7 harg7 hc0 hc1 x0 x1 x2 x3 x4 xs0 = update x0 x1 x2 x3 x4 xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xs0)]
  unfold kernelRun0_B
  dsimp only
  sl_unfold_words
  rw [View.canon_unit_zero hz2]
  simp only [View.readAt_eq_ld, harg1.read_unread, harg2.read_unread, harg3.read_unread, harg4.read_unread, harg5.read_unread, harg7.read_unread, View.ld_unit_zero (S := S256x512) hz2, View.ld_unit_zero (S := S8x256x512) hz3, View.ld_unit_zero (S := S1x1) hz2, View.readCov_unit_zero (S := S1x1) _ hz2]

/-- At the last point the running total ends at the update over what the point before left, -/
theorem total_last (c : Dev nD) (i : grid0.Coords) (arg1 : Memref sig .tc .vmem S256x512 .f32) (harg1 : arg1.IsWhole) (arg2 : Memref sig .tc .vmem S8x256x512 .f32) (harg2 : arg2.IsWhole) (arg3 : Memref sig .tc .vmem S8x256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1 .f32) (harg6 : arg6.IsWhole) (arg7 : Memref sig .tc .vmem S1x1 .f32) (harg7 : arg7.IsWhole) (hc0 : ¬cond0_0 i) (hc1 : cond0_1 i) (x0 : Vec F S256x512 .f32) (x1 : Vec F S8x256x512 .f32) (x2 : Vec F S8x256x512 .f32) (x3 : Vec F S256x512 .f32) (x4 : Vec F S256x512 .f32) (xs0 : Vec F S1x1 .f32) :
    sout0_C_0 c i arg1 harg1 arg2 harg2 arg3 harg3 arg4 harg4 arg5 harg5 arg6 harg6 arg7 harg7 hc0 hc1 x0 x1 x2 x3 x4 xs0 = update x0 x1 x2 x3 x4 xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz2]
  simp only [View.readAt_eq_ld, harg1.read_unread, harg2.read_unread, harg3.read_unread, harg4.read_unread, harg5.read_unread, harg7.read_unread, View.ld_unit_zero (S := S256x512) hz2, View.ld_unit_zero (S := S8x256x512) hz3, View.ld_unit_zero (S := S1x1) hz2, View.readCov_unit_zero (S := S1x1) _ hz2]

/-- … and the result's buffer at that total over the word of 8192. -/
theorem result_last (c : Dev nD) (i : grid0.Coords) (arg1 : Memref sig .tc .vmem S256x512 .f32) (harg1 : arg1.IsWhole) (arg2 : Memref sig .tc .vmem S8x256x512 .f32) (harg2 : arg2.IsWhole) (arg3 : Memref sig .tc .vmem S8x256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1 .f32) (harg6 : arg6.IsWhole) (arg7 : Memref sig .tc .vmem S1x1 .f32) (harg7 : arg7.IsWhole) (hc0 : ¬cond0_0 i) (hc1 : cond0_1 i) (x0 : Vec F S256x512 .f32) (x1 : Vec F S8x256x512 .f32) (x2 : Vec F S8x256x512 .f32) (x3 : Vec F S256x512 .f32) (x4 : Vec F S256x512 .f32) (xs0 : Vec F S1x1 .f32) :
    out0_C_5 c i arg1 harg1 arg2 harg2 arg3 harg3 arg4 harg4 arg5 harg5 arg6 harg6 arg7 harg7 hc0 hc1 x0 x1 x2 x3 x4 xs0 = k0_pay2 (update x0 x1 x2 x3 x4 xs0) := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz1]
  simp only [View.readAt_eq_ld, harg1.read_unread, harg2.read_unread, harg3.read_unread, harg4.read_unread, harg5.read_unread, harg7.read_unread, View.ld_unit_zero (S := S256x512) hz2, View.ld_unit_zero (S := S8x256x512) hz3, View.ld_unit_zero (S := S1x1) hz2, View.readCov_unit_zero (S := S1x1) _ hz2]

end Cert.KernelIdeal.Pieces

end
-- ==== Proof.KernelValue.lean ====
/-
  The kernel's result array: the total of the row losses over the word of 8192.

  Point `t` of the grid holds rows `256 t … 256 t + 255` of each argument, so the update it stores is the running total it found plus
  the sum of those rows' losses. The total is reset at the first point; by induction over the points, after point `n` it is the sum
  over the points `0 … n` of each point's 256 row losses. The last point stores that sum over the word of 8192 into the result's
  block, which is the whole one-entry result array and is written back only there. Regrouping the 32 runs of 256 rows into the 8192
  rows gives the specification's total.
-/
import proofs.«178410_j83141976916016_1_alg».proof.Proof.Gen.KernelIdeal.Value
import proofs.«178410_j83141976916016_1_alg».proof.Proof.KernelBlock
import proofs.«178410_j83141976916016_1_alg».proof.Proof.KernelPieces

set_option maxRecDepth 16384

noncomputable section

open scoped BigOperators

namespace Cert.KernelIdeal.Total

open Cert.KernelIdeal Cert.KernelIdeal.Gen Idealize.ShloMosaic Idealize.ShloMosaic.TcCoe Idealize.SL.Sem Idealize.ShloMosaic.ValueIdx
open Idealize.ShloMosaic.Pipeline (Dat)
open Cert.RowLoss Cert.KernelIdeal.Block Cert.KernelIdeal.Pieces

variable (m : (ℓ : Loc nD τ sig) → Buf (Elt Ideal) ℓ) (ρ : Dev nD → PrngReg)

/-! ## The blocks a point holds, and the arrays they are cut from -/

abbrev base (c : Dev nD) (t : Fin cfg0.N) : Vec Ideal S256x512 .f32 := iblk m c 0 t
abbrev pos (c : Dev nD) (t : Fin cfg0.N) : Vec Ideal S8x256x512 .f32 := iblk m c 1 t
abbrev cross (c : Dev nD) (t : Fin cfg0.N) : Vec Ideal S8x256x512 .f32 := iblk m c 2 t
abbrev neg₁ (c : Dev nD) (t : Fin cfg0.N) : Vec Ideal S256x512 .f32 := iblk m c 3 t
abbrev neg₂ (c : Dev nD) (t : Fin cfg0.N) : Vec Ideal S256x512 .f32 := iblk m c 4 t

abbrev B (c : Dev nD) : S8192x512.Idx → EReal := m ((c : Thread nD τ).loc main_arg0)
abbrev P (c : Dev nD) : S8x8192x512.Idx → EReal := m ((c : Thread nD τ).loc main_arg1)
abbrev Q (c : Dev nD) : S8x8192x512.Idx → EReal := m ((c : Thread nD τ).loc main_arg3)
abbrev N₁ (c : Dev nD) : S8192x512.Idx → EReal := m ((c : Thread nD τ).loc main_arg4)
abbrev N₂ (c : Dev nD) : S8192x512.Idx → EReal := m ((c : Thread nD τ).loc main_arg5)

/-- The printed index maps over the grid: every input block moves down its array's row axis with the point and sits at the origin of
    the other axes. -/
theorem idx_facts : ∀ t : Fin cfg0.N,
    (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

theorem row_lt (t : Fin cfg0.N) (p : Fin 256) : 256 * t.val + p.val < 8192 := by
  have hN : cfg0.N = 32 := N_0
  have := t.isLt; have := p.isLt; omega

/-- Row `p` of the base block at point `t` is row `256 t + p` of the base array. -/
theorem base_apply (c : Dev nD) (t : Fin cfg0.N) (p : Fin 256) (k : Fin 512) :
    base m c t (ix2 p k) = B m c (ix2 ⟨256 * t.val + p.val, row_lt t p⟩ k) := by
  show V m c main_arg0 (((cfg0.win 0).blk t).view.emb (ix2 p k)) = _
  refine congrArg (V m c main_arg0) (funext fun a => Fin.ext ?_)
  obtain ⟨⟨e0, e1⟩, -⟩ := idx_facts t
  match a with
  | ⟨0, _⟩ => show win0_0.index t (0 : Fin 2) * 256 + 1 * p.val = 256 * t.val + p.val; rw [e0]; omega
  | ⟨1, _⟩ => show win0_0.index t (1 : Fin 2) * 512 + 1 * k.val = k.val; rw [e1]; omega

theorem pos_apply (c : Dev nD) (t : Fin cfg0.N) (j : Fin 8) (p : Fin 256) (k : Fin 512) :
    pos m c t (ix3 j p k) = P m c (ix3 j ⟨256 * t.val + p.val, row_lt t p⟩ k) := by
  show V m c main_arg1 (((cfg0.win 1).blk t).view.emb (ix3 j p k)) = _
  refine congrArg (V m c main_arg1) (funext fun a => Fin.ext ?_)
  obtain ⟨-, ⟨e0, e1, e2⟩, -⟩ := idx_facts t
  match a with
  | ⟨0, _⟩ => show win0_1.index t (0 : Fin 3) * 8 + 1 * j.val = j.val; rw [e0]; omega
  | ⟨1, _⟩ => show win0_1.index t (1 : Fin 3) * 256 + 1 * p.val = 256 * t.val + p.val; rw [e1]; omega
  | ⟨2, _⟩ => show win0_1.index t (2 : Fin 3) * 512 + 1 * k.val = k.val; rw [e2]; omega

theorem cross_apply (c : Dev nD) (t : Fin cfg0.N) (j : Fin 8) (p : Fin 256) (k : Fin 512) :
    cross m c t (ix3 j p k) = Q m c (ix3 j ⟨256 * t.val + p.val, row_lt t p⟩ k) := by
  show V m c main_arg3 (((cfg0.win 2).blk t).view.emb (ix3 j p k)) = _
  refine congrArg (V m c main_arg3) (funext fun a => Fin.ext ?_)
  obtain ⟨-, -, ⟨e0, e1, e2⟩, -⟩ := idx_facts t
  match a with
  | ⟨0, _⟩ => show win0_2.index t (0 : Fin 3) * 8 + 1 * j.val = j.val; rw [e0]; omega
  | ⟨1, _⟩ => show win0_2.index t (1 : Fin 3) * 256 + 1 * p.val = 256 * t.val + p.val; rw [e1]; omega
  | ⟨2, _⟩ => show win0_2.index t (2 : Fin 3) * 512 + 1 * k.val = k.val; rw [e2]; omega

theorem neg₁_apply (c : Dev nD) (t : Fin cfg0.N) (p : Fin 256) (k : Fin 512) :
    neg₁ m c t (ix2 p k) = N₁ m c (ix2 ⟨256 * t.val + p.val, row_lt t p⟩ k) := by
  show V m c main_arg4 (((cfg0.win 3).blk t).view.emb (ix2 p k)) = _
  refine congrArg (V m c main_arg4) (funext fun a => Fin.ext ?_)
  obtain ⟨-, -, -, ⟨e0, e1⟩, -⟩ := idx_facts t
  match a with
  | ⟨0, _⟩ => show win0_3.index t (0 : Fin 2) * 256 + 1 * p.val = 256 * t.val + p.val; rw [e0]; omega
  | ⟨1, _⟩ => show win0_3.index t (1 : Fin 2) * 512 + 1 * k.val = k.val; rw [e1]; omega

theorem neg₂_apply (c : Dev nD) (t : Fin cfg0.N) (p : Fin 256) (k : Fin 512) :
    neg₂ m c t (ix2 p k) = N₂ m c (ix2 ⟨256 * t.val + p.val, row_lt t p⟩ k) := by
  show V m c main_arg5 (((cfg0.win 4).blk t).view.emb (ix2 p k)) = _
  refine congrArg (V m c main_arg5) (funext fun a => Fin.ext ?_)
  obtain ⟨-, -, -, -, ⟨e0, e1⟩⟩ := idx_facts t
  match a with
  | ⟨0, _⟩ => show win0_4.index t (0 : Fin 2) * 256 + 1 * p.val = 256 * t.val + p.val; rw [e0]; omega
  | ⟨1, _⟩ => show win0_4.index t (1 : Fin 2) * 512 + 1 * k.val = k.val; rw [e1]; omega

/-! ## The running total after each point -/

/-- What the first point leaves in the running total. -/
theorem tot_first (c : Dev nD) (t : Fin cfg0.N) (h0 : t.val % 32 = 0) (h1 : ¬t.val % 32 = 31) :
    (outsAt0 m c t.val t.isLt).2 = update (base m c t) (pos m c t) (cross m c t) (neg₁ m c t) (neg₂ m c t) (k0_pay3 (F := Ideal)) := by
  rw [outsAt0_A m c t h0 h1]
  dsimp only
  exact total_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- What a middle point leaves in it, over what the point before left. -/
theorem tot_middle (c : Dev nD) (t : Fin cfg0.N) (h0 : ¬t.val % 32 = 0) (h1 : ¬t.val % 32 = 31) :
    (outsAt0 m c t.val t.isLt).2
      = update (base m c t) (pos m c t) (cross m c t) (neg₁ m c t) (neg₂ m c t) (outsAt0 m c (t.val - 1) (Nat.lt_of_le_of_lt (Nat.sub_le _ _) t.isLt)).2 := by
  rw [outsAt0_B m c t h0 h1]
  dsimp only
  exact total_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- What the last point leaves in it, -/
theorem tot_last (c : Dev nD) (t : Fin cfg0.N) (h0 : ¬t.val % 32 = 0) (h1 : t.val % 32 = 31) :
    (outsAt0 m c t.val t.isLt).2
      = update (base m c t) (pos m c t) (cross m c t) (neg₁ m c t) (neg₂ m c t) (outsAt0 m c (t.val - 1) (Nat.lt_of_le_of_lt (Nat.sub_le _ _) t.isLt)).2 := by
  rw [outsAt0_C m c t h0 h1]
  dsimp only
  exact total_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- … and in the result's buffer: the total it leaves, over the word of 8192. -/
theorem res_last (c : Dev nD) (t : Fin cfg0.N) (h0 : ¬t.val % 32 = 0) (h1 : t.val % 32 = 31) :
    (outsAt0 m c t.val t.isLt).1 = k0_pay2 (outsAt0 m c t.val t.isLt).2 := by
  rw [tot_last m c t h0 h1, outsAt0_C m c t h0 h1]
  dsimp only
  exact result_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- The sum of the row losses of the 256 rows point `s` holds (zero past the grid, where there is no point). -/
def runSum (c : Dev nD) (s : ℕ) : EReal :=
  if h : s < cfg0.N then
    ∑ p : Fin 256, rowLoss (fun k => base m c ⟨s, h⟩ (ix2 p k)) (fun j k => pos m c ⟨s, h⟩ (ix3 j p k))
      (fun j k => cross m c ⟨s, h⟩ (ix3 j p k)) (fun k => neg₁ m c ⟨s, h⟩ (ix2 p k)) (fun k => neg₂ m c ⟨s, h⟩ (ix2 p k))
  else 0

/-- AFTER POINT `n` the running total is the sum over the points `0 … n` of each point's 256 row losses. -/
theorem tot_eq (c : Dev nD) : ∀ (n : ℕ) (hn : n < cfg0.N),
    (outsAt0 m c n hn).2 (ix2 (0 : Fin 1) (0 : Fin 1)) = ∑ s ∈ Finset.range (n + 1), runSum m c s
  | 0, hn => by
    rw [tot_first m c ⟨0, hn⟩ rfl (by dsimp only; omega)]
    refine (update_apply (base m c ⟨0, hn⟩) (neg₁ m c ⟨0, hn⟩) (neg₂ m c ⟨0, hn⟩) (pos m c ⟨0, hn⟩) (cross m c ⟨0, hn⟩) (k0_pay3 (F := Ideal))).trans ?_
    rw [pay3_apply, zero_add, Finset.sum_range_one, runSum, dif_pos hn]
  | n + 1, hn => by
    have hN : cfg0.N = 32 := N_0
    have h0 : ¬(⟨n + 1, hn⟩ : Fin cfg0.N).val % 32 = 0 := by dsimp only; omega
    have step : (outsAt0 m c (n + 1) hn).2
        = update (base m c ⟨n + 1, hn⟩) (pos m c ⟨n + 1, hn⟩) (cross m c ⟨n + 1, hn⟩) (neg₁ m c ⟨n + 1, hn⟩) (neg₂ m c ⟨n + 1, hn⟩)
            (outsAt0 m c n (Nat.lt_of_succ_lt hn)).2 := by
      by_cases h1 : (⟨n + 1, hn⟩ : Fin cfg0.N).val % 32 = 31
      · exact tot_last m c ⟨n + 1, hn⟩ h0 h1
      · exact tot_middle m c ⟨n + 1, hn⟩ h0 h1
    rw [step]
    refine (update_apply (base m c ⟨n + 1, hn⟩) (neg₁ m c ⟨n + 1, hn⟩) (neg₂ m c ⟨n + 1, hn⟩) (pos m c ⟨n + 1, hn⟩) (cross m c ⟨n + 1, hn⟩)
      (outsAt0 m c n (Nat.lt_of_succ_lt hn)).2).trans ?_
    rw [tot_eq c n (Nat.lt_of_succ_lt hn), Finset.sum_range_succ _ (n + 1), runSum, dif_pos hn]

/-! ## From the runs of 256 rows to the 8192 rows -/

/-- The loss of row `r` of the argument arrays (zero past the last row, where there is no row). -/
def lossRow (c : Dev nD) (r : ℕ) : EReal :=
  if h : r < 8192 then lossAt (B m c) (P m c) (Q m c) (N₁ m c) (N₂ m c) ⟨r, h⟩ else 0

/-- Point `s` holds rows `256 s … 256 s + 255`: its 256 row losses are those rows' losses. -/
theorem runSum_eq (c : Dev nD) (s : ℕ) (hs : s < 32) : runSum m c s = ∑ q : Fin 256, lossRow m c (256 * s + q.val) := by
  have hN : cfg0.N = 32 := N_0
  have h : s < cfg0.N := by omega
  rw [runSum, dif_pos h]
  refine Finset.sum_congr rfl fun q _ => ?_
  have hr : 256 * s + q.val < 8192 := by have := q.isLt; omega
  rw [lossRow, dif_pos hr]
  have e0 : (fun k => base m c ⟨s, h⟩ (ix2 q k)) = fun k => B m c (ix2 ⟨256 * s + q.val, hr⟩ k) :=
    funext fun k => base_apply m c ⟨s, h⟩ q k
  have e1 : (fun j k => pos m c ⟨s, h⟩ (ix3 j q k)) = fun j k => P m c (ix3 j ⟨256 * s + q.val, hr⟩ k) :=
    funext fun j => funext fun k => pos_apply m c ⟨s, h⟩ j q k
  have e2 : (fun j k => cross m c ⟨s, h⟩ (ix3 j q k)) = fun j k => Q m c (ix3 j ⟨256 * s + q.val, hr⟩ k) :=
    funext fun j => funext fun k => cross_apply m c ⟨s, h⟩ j q k
  have e3 : (fun k => neg₁ m c ⟨s, h⟩ (ix2 q k)) = fun k => N₁ m c (ix2 ⟨256 * s + q.val, hr⟩ k) :=
    funext fun k => neg₁_apply m c ⟨s, h⟩ q k
  have e4 : (fun k => neg₂ m c ⟨s, h⟩ (ix2 q k)) = fun k => N₂ m c (ix2 ⟨256 * s + q.val, hr⟩ k) :=
    funext fun k => neg₂_apply m c ⟨s, h⟩ q k
  rw [e0, e1, e2, e3, e4]
  rfl

/-- AFTER THE LAST POINT the running total is the sum of all 8192 rows' losses. -/
theorem tot_final (c : Dev nD) (hn : 31 < cfg0.N) :
    (outsAt0 m c 31 hn).2 (ix2 (0 : Fin 1) (0 : Fin 1)) = ∑ r : Fin 8192, lossAt (B m c) (P m c) (Q m c) (N₁ m c) (N₂ m c) r := by
  rw [tot_eq m c 31 hn]
  have e : ∑ r : Fin 8192, lossAt (B m c) (P m c) (Q m c) (N₁ m c) (N₂ m c) r = ∑ r : Fin 8192, lossRow m c r.val :=
    Finset.sum_congr rfl fun r _ => by rw [lossRow, dif_pos r.isLt]
  rw [e, sum_rows_by_runs (lossRow m c)]
  exact Finset.sum_congr rfl fun s hs => runSum_eq m c s (Finset.mem_range.mp hs)

/-! ## The result array -/

/-- The result: the specification's total of the five argument arrays the kernel reads. -/
abbrev result (c : Dev nD) : Buf (Elt Ideal) ((c : Thread nD τ).loc main_v0) :=
  total (B m c) (P m c) (Q m c) (N₁ m c) (N₂ m c)

/-- A one-entry vector is read at its one entry. -/
theorem one_entry (X : Vec Ideal S1 .f32) (j : S1.Idx) : X j = X (ix1 (0 : Fin 1)) :=
  congrArg X (funext fun a => Fin.ext (by match a with | ⟨0, _⟩ => exact Nat.lt_one_iff.mp (j 0).isLt))

/-- The result's block never moves. -/
theorem idx_res : ∀ t : Fin cfg0.N, win0_5.index t (0 : Fin 1) = 0 := (by decide +kernel : ∀ t : Fin grid0.N, _)

/-- The one write-back, after the last point, writes the total over the word of 8192: the result's block is the whole array. -/
theorem flushed_eq (c : Dev nD) (t : Fin cfg0.N) (hf : (cfg0.win 5).flush t = true) :
    (dats m 0 c).flushed 5 t = ((cfg0.win 5).blk t).view.read (Elt Ideal) (result m c) := by
  have hN : cfg0.N = 32 := N_0
  obtain ⟨n, hn⟩ := t
  have h31 : n % 32 = 31 := (flush0_5 ⟨n, hn⟩).mp hf
  obtain rfl : n = 31 := by omega
  rw [Value.flushed5]
  funext j
  show (outsAt0 m c 31 hn).1 j
    = Ideal.div (∑ r : Fin 8192, lossAt (B m c) (P m c) (Q m c) (N₁ m c) (N₂ m c) r) (Ideal.ofBits .f32 0x46000000#32)
  rw [res_last m c ⟨31, hn⟩ (by dsimp only; omega) rfl]
  refine (one_entry _ j).trans ?_
  rw [pay2_apply]
  exact congrArg (fun s => Ideal.div s (Ideal.ofBits .f32 0x46000000#32)) (tot_final m c hn)

/-- An index of the result array is in a point's block iff it is in the block's range. -/
theorem mem_blk (t : Fin cfg0.N) (i : S1.Idx) :
    i ∈ ((cfg0.win 5).blk t).view.set
      ↔ ∀ a : Fin 1, win0_5.index t a * S1.size a ≤ (i a).val ∧ (i a).val < win0_5.index t a * S1.size a + S1.size a := by
  show i ∈ ((View.whole main_v0).slice (win0_5.rect t)).set ↔ _
  rw [View.set_slice_whole, Rect.mem_set_unit]
  exact Iff.rfl

/-- So the result array ends holding the total over the word of 8192. -/
theorem final (c : Dev nD) : (dats m 0 c).arrAt 5 cfg0.N = result m c :=
  (dats m 0 c).arrAt_eq_of_cover 5 (result m c) (flushed_eq m c) fun i =>
    ⟨⟨31, by rw [show cfg0.N = 32 from N_0]; decide⟩, (flush0_5 _).mpr rfl, (mem_blk _ i).mpr fun a => by
      match a with
      | ⟨0, _⟩ =>
        show win0_5.index _ (0 : Fin 1) * 1 ≤ (i 0).val ∧ (i 0).val < win0_5.index _ (0 : Fin 1) * 1 + 1
        rw [idx_res]
        have h1 : (i 0).val < 1 := (i 0).isLt
        omega⟩

/-- THE KERNEL'S RUN, READ: the result array at the total over the word of 8192, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Total

end
-- ==== Proof.RefValue.lean ====
/-
  The reference's result: the specification's total.

  Row by row the reference computes what the specification says: the two prototypes are the means of the eight positive and of the eight
  cross slices (a sum from the initial value zero, over the word of 8); each of the four cosines is the inner product over the larger
  of the product of the two norms and ε, over the word of 1, exponentiated — the norms the square roots of the sums of squares —; the
  row's loss is minus the logarithm of the positive share plus ε. The result is zero plus the sum of all the rows' losses, spread to the
  one-entry vector and divided by the word of 8192. The host's quotient, square root, exponential, logarithm and negation are the
  extended reals' own operations, so nothing is left between the two but spelling the indices.
-/
import proofs.«178410_j83141976916016_1_alg».proof.Proof.Gen.ReferenceIdeal.Read
import proofs.«178410_j83141976916016_1_alg».proof.Proof.RowLoss
import Idealize.ShloMosaic.Lib.ValueIdxRank1

noncomputable section

open scoped BigOperators

namespace Cert.ReferenceIdeal.RefValue

open Cert.ReferenceIdeal Cert.ReferenceIdeal.Gen Cert.ReferenceIdeal.Read Idealize.ShloMosaic Idealize.ShloMosaic.ValueIdx
open Cert.RowLoss

/-! ## The indices the reference's sums read -/

theorem idx_v10 (r : Fin 8192) (k : Fin 512) : idx_main_v10 (ix1 r) k = ix2 r k :=
  funext fun a => Fin.ext (by match a with | ⟨0, _⟩ => rfl | ⟨1, _⟩ => rfl)
theorem idx_v21 (r : Fin 8192) (k : Fin 512) : idx_main_v21 (ix1 r) k = ix2 r k :=
  funext fun a => Fin.ext (by match a with | ⟨0, _⟩ => rfl | ⟨1, _⟩ => rfl)
theorem idx_v32 (r : Fin 8192) (k : Fin 512) : idx_main_v32 (ix1 r) k = ix2 r k :=
  funext fun a => Fin.ext (by match a with | ⟨0, _⟩ => rfl | ⟨1, _⟩ => rfl)
theorem idx_v43 (r : Fin 8192) (k : Fin 512) : idx_main_v43 (ix1 r) k = ix2 r k :=
  funext fun a => Fin.ext (by match a with | ⟨0, _⟩ => rfl | ⟨1, _⟩ => rfl)
theorem idx_call0_v1 (r : Fin 8192) (k : Fin 512) : idx_main_call0_v1 (ix1 r) k = ix2 r k :=
  funext fun a => Fin.ext (by match a with | ⟨0, _⟩ => rfl | ⟨1, _⟩ => rfl)
theorem idx_call1_v1 (r : Fin 8192) (k : Fin 512) : idx_main_call1_v1 (ix1 r) k = ix2 r k :=
  funext fun a => Fin.ext (by match a with | ⟨0, _⟩ => rfl | ⟨1, _⟩ => rfl)
theorem idx_call2_v1 (r : Fin 8192) (k : Fin 512) : idx_main_call2_v1 (ix1 r) k = ix2 r k :=
  funext fun a => Fin.ext (by match a with | ⟨0, _⟩ => rfl | ⟨1, _⟩ => rfl)
theorem idx_call3_v1 (r : Fin 8192) (k : Fin 512) : idx_main_call3_v1 (ix1 r) k = ix2 r k :=
  funext fun a => Fin.ext (by match a with | ⟨0, _⟩ => rfl | ⟨1, _⟩ => rfl)
theorem idx_call4_v1 (r : Fin 8192) (k : Fin 512) : idx_main_call4_v1 (ix1 r) k = ix2 r k :=
  funext fun a => Fin.ext (by match a with | ⟨0, _⟩ => rfl | ⟨1, _⟩ => rfl)
theorem idx_call5_v1 (r : Fin 8192) (k : Fin 512) : idx_main_call5_v1 (ix1 r) k = ix2 r k :=
  funext fun a => Fin.ext (by match a with | ⟨0, _⟩ => rfl | ⟨1, _⟩ => rfl)
theorem idx_call6_v1 (r : Fin 8192) (k : Fin 512) : idx_main_call6_v1 (ix1 r) k = ix2 r k :=
  funext fun a => Fin.ext (by match a with | ⟨0, _⟩ => rfl | ⟨1, _⟩ => rfl)
theorem idx_call7_v1 (r : Fin 8192) (k : Fin 512) : idx_main_call7_v1 (ix1 r) k = ix2 r k :=
  funext fun a => Fin.ext (by match a with | ⟨0, _⟩ => rfl | ⟨1, _⟩ => rfl)
theorem idx_v0 (r : Fin 8192) (k : Fin 512) (j : Fin 8) : idx_main_v0 (ix2 r k) j = ix3 j r k :=
  funext fun a => Fin.ext (by match a with | ⟨0, _⟩ => rfl | ⟨1, _⟩ => rfl | ⟨2, _⟩ => rfl)
theorem idx_v6 (r : Fin 8192) (k : Fin 512) (j : Fin 8) : idx_main_v6 (ix2 r k) j = ix3 j r k :=
  funext fun a => Fin.ext (by match a with | ⟨0, _⟩ => rfl | ⟨1, _⟩ => rfl | ⟨2, _⟩ => rfl)

/-! ## The prototypes -/

/-- The positive prototype at row `r`, lane `k`. -/
theorem posMean_apply (x1 : (⟨S8x8192x512, .f32⟩ : BufTy).Contents (Elt Ideal)) (r : Fin 8192) (k : Fin 512) :
    val_main_v2 (F := Ideal) x1 (ix2 r k) = mean8 (fun j k => x1 (ix3 j r k)) k := by
  simp only [val_main_v2_apply, val_main_v0_apply, val_main_v1_apply, val_main_cst_0_apply, val_main_cst_apply, idx_v0,
    Ideal.hostDivf_def, Ideal.ofBits_def, Ideal.ofBits_zero_f32, zero_add]
  rfl

/-- The cross prototype at row `r`, lane `k`. -/
theorem crossMean_apply (x3 : (⟨S8x8192x512, .f32⟩ : BufTy).Contents (Elt Ideal)) (r : Fin 8192) (k : Fin 512) :
    val_main_v8 (F := Ideal) x3 (ix2 r k) = mean8 (fun j k => x3 (ix3 j r k)) k := by
  simp only [val_main_v8_apply, val_main_v6_apply, val_main_v7_apply, val_main_cst_4_apply, val_main_cst_3_apply, idx_v6,
    Ideal.hostDivf_def, Ideal.ofBits_def, Ideal.ofBits_zero_f32, zero_add]
  rfl

/-! ## The four exponentiated cosines -/

/-- The base row against the positive prototype. -/
theorem cosPos_apply (x0 : (⟨S8192x512, .f32⟩ : BufTy).Contents (Elt Ideal)) (x1 : (⟨S8x8192x512, .f32⟩ : BufTy).Contents (Elt Ideal)) (r : Fin 8192) :
    val_main_v19 (F := Ideal) x0 x1 (ix1 r) = expCos (fun k => x0 (ix2 r k)) (mean8 (fun j k => x1 (ix3 j r k))) := by
  simp only [val_main_v19_apply, val_main_v18_apply, val_main_v17_apply, val_main_cst_7_apply, val_main_v16_apply, val_main_v15_apply, val_main_v14_apply, val_main_cst_6_apply, val_main_v13_apply, val_main_v12_apply, val_main_call1_v1_apply, val_main_call1_cst_apply, val_main_call1_v0_apply, val_main_v11_apply, val_main_call0_v1_apply, val_main_call0_cst_apply, val_main_call0_v0_apply, val_main_v10_apply, val_main_cst_5_apply, val_main_v9_apply, idx_v10, idx_call0_v1, idx_call1_v1, posMean_apply,
    Ideal.hostUnary_exp_def, Ideal.hostUnary_sqrt_def, Ideal.hostDivf_def, Ideal.maximumf_def, Ideal.mulf_def, Ideal.ofBits_def, Ideal.ofBits_zero_f32, zero_add]
  rfl

/-- The base row against the cross prototype. -/
theorem cosCross_apply (x0 : (⟨S8192x512, .f32⟩ : BufTy).Contents (Elt Ideal)) (x3 : (⟨S8x8192x512, .f32⟩ : BufTy).Contents (Elt Ideal)) (r : Fin 8192) :
    val_main_v30 (F := Ideal) x0 x3 (ix1 r) = expCos (fun k => x0 (ix2 r k)) (mean8 (fun j k => x3 (ix3 j r k))) := by
  simp only [val_main_v30_apply, val_main_v29_apply, val_main_v28_apply, val_main_cst_10_apply, val_main_v27_apply, val_main_v26_apply, val_main_v25_apply, val_main_cst_9_apply, val_main_v24_apply, val_main_v23_apply, val_main_call3_v1_apply, val_main_call3_cst_apply, val_main_call3_v0_apply, val_main_v22_apply, val_main_call2_v1_apply, val_main_call2_cst_apply, val_main_call2_v0_apply, val_main_v21_apply, val_main_cst_8_apply, val_main_v20_apply, idx_v21, idx_call2_v1, idx_call3_v1, crossMean_apply,
    Ideal.hostUnary_exp_def, Ideal.hostUnary_sqrt_def, Ideal.hostDivf_def, Ideal.maximumf_def, Ideal.mulf_def, Ideal.ofBits_def, Ideal.ofBits_zero_f32, zero_add]
  rfl

/-- The base row against the first negative's row. -/
theorem cosNeg₁_apply (x0 x4 : (⟨S8192x512, .f32⟩ : BufTy).Contents (Elt Ideal)) (r : Fin 8192) :
    val_main_v41 (F := Ideal) x0 x4 (ix1 r) = expCos (fun k => x0 (ix2 r k)) (fun k => x4 (ix2 r k)) := by
  simp only [val_main_v41_apply, val_main_v40_apply, val_main_v39_apply, val_main_cst_13_apply, val_main_v38_apply, val_main_v37_apply, val_main_v36_apply, val_main_cst_12_apply, val_main_v35_apply, val_main_v34_apply, val_main_call5_v1_apply, val_main_call5_cst_apply, val_main_call5_v0_apply, val_main_v33_apply, val_main_call4_v1_apply, val_main_call4_cst_apply, val_main_call4_v0_apply, val_main_v32_apply, val_main_cst_11_apply, val_main_v31_apply, idx_v32, idx_call4_v1, idx_call5_v1,
    Ideal.hostUnary_exp_def, Ideal.hostUnary_sqrt_def, Ideal.hostDivf_def, Ideal.maximumf_def, Ideal.mulf_def, Ideal.ofBits_def, Ideal.ofBits_zero_f32, zero_add]
  rfl

/-- The base row against the second negative's row. -/
theorem cosNeg₂_apply (x0 x5 : (⟨S8192x512, .f32⟩ : BufTy).Contents (Elt Ideal)) (r : Fin 8192) :
    val_main_v52 (F := Ideal) x0 x5 (ix1 r) = expCos (fun k => x0 (ix2 r k)) (fun k => x5 (ix2 r k)) := by
  simp only [val_main_v52_apply, val_main_v51_apply, val_main_v50_apply, val_main_cst_16_apply, val_main_v49_apply, val_main_v48_apply, val_main_v47_apply, val_main_cst_15_apply, val_main_v46_apply, val_main_v45_apply, val_main_call7_v1_apply, val_main_call7_cst_apply, val_main_call7_v0_apply, val_main_v44_apply, val_main_call6_v1_apply, val_main_call6_cst_apply, val_main_call6_v0_apply, val_main_v43_apply, val_main_cst_14_apply, val_main_v42_apply, idx_v43, idx_call6_v1, idx_call7_v1,
    Ideal.hostUnary_exp_def, Ideal.hostUnary_sqrt_def, Ideal.hostDivf_def, Ideal.maximumf_def, Ideal.mulf_def, Ideal.ofBits_def, Ideal.ofBits_zero_f32, zero_add]
  rfl

/-! ## The row loss and the total -/

/-- The reference's loss vector at row `r` is the specification's loss of that row. -/
theorem loss_apply (x0 : (⟨S8192x512, .f32⟩ : BufTy).Contents (Elt Ideal)) (x1 x3 : (⟨S8x8192x512, .f32⟩ : BufTy).Contents (Elt Ideal)) (x4 x5 : (⟨S8192x512, .f32⟩ : BufTy).Contents (Elt Ideal)) (r : Fin 8192) :
    val_main_v60 (F := Ideal) x0 x1 x3 x4 x5 (ix1 r) = lossAt x0 x1 x3 x4 x5 r := by
  simp only [val_main_v60_apply, val_main_v59_apply, val_main_v58_apply, val_main_v57_apply, val_main_cst_17_apply, val_main_v56_apply,
    val_main_v55_apply, val_main_v54_apply, val_main_v53_apply, cosPos_apply, cosCross_apply, cosNeg₁_apply, cosNeg₂_apply,
    Ideal.hostNegf_def, Ideal.negf_def, Ideal.hostUnary_log_def, Ideal.addf_def, Ideal.hostDivf_def, Ideal.ofBits_def]
  rfl

/-- THE REFERENCE'S RESULT is the specification's total of the five arrays it reads. -/
theorem result_eq (x0 : (⟨S8192x512, .f32⟩ : BufTy).Contents (Elt Ideal)) (x1 x3 : (⟨S8x8192x512, .f32⟩ : BufTy).Contents (Elt Ideal)) (x4 x5 : (⟨S8192x512, .f32⟩ : BufTy).Contents (Elt Ideal)) :
    val_main_v64 (F := Ideal) x0 x1 x3 x4 x5 = total x0 x1 x3 x4 x5 := by
  funext i
  simp only [val_main_v64_apply, val_main_v63_apply, val_main_cst_19_apply, val_main_v62_apply, val_main_v61_apply, val_main_cst_18_apply,
    Ideal.hostDivf_def, Ideal.ofBits_def, Ideal.ofBits_zero_f32, zero_add]
  rw [← Equiv.sum_comp (idxEquiv1 (n := 8192)).symm]
  refine congrArg (fun s => Ideal.div s (Ideal.ofBits .f32 0x46000000#32)) (Finset.sum_congr rfl fun r _ => ?_)
  exact loss_apply x0 x1 x3 x4 x5 r

end Cert.ReferenceIdeal.RefValue

end
-- ==== Proof.lean ====
/-
  A contrastive loss over 8192 rows, computed by a kernel in 32 blocks of 256 rows and by a reference over all rows at once: the two
  end with the same one-entry result on the extended reals.

  For each row, with base slice b, the means p̄, q̄ of its eight positive and eight cross slices, and negative slices n₁, n₂ (512 lanes
  each), let e(y) = exp ((⟨b, y⟩ / max (‖b‖ ‖y‖, ε)) / 1). The row's loss is −log ((e(p̄) + e(q̄)) / ((e(n₁) + e(n₂)) + (e(p̄) + e(q̄))) + ε),
  and the result is the sum of the 8192 losses over 8192 (`Cert.RowLoss.total`). Kernel and reference apply the same operations in
  the same order to the same words (ε, 1, 8, 8192), so row by row they agree as written; they differ in two places only. The kernel
  writes the minus sign as 0 − x, which is −x on every extended real. And the kernel adds the losses block by block — a running total,
  zero at the first grid point, to which each point adds the sum of its 256 rows, divided by 8192 and written back after the last
  point — where the reference adds all 8192 from zero; the two sums agree because addition of extended reals is commutative and
  associative. Neither step asks an entry to be finite, so the precondition is not opened. The third 8-slice argument is read by
  neither result: the kernel never stages it, and the reference's mean of it feeds nothing.

  The kernel's side is `Cert.KernelIdeal.Total.run` (the value of one grid point's arithmetic, the induction over the grid points,
  the one write-back that covers the result array); the reference's side is `Cert.ReferenceIdeal.RefValue.result_eq` over the
  generated run of the reference. The three frames are the generated ones (the reference's is its run with the result dropped), and
  the idealization rewrote nothing, so there is nothing to preserve.
-/
import proofs.«178410_j83141976916016_1_alg».proof.Defs
import proofs.«178410_j83141976916016_1_alg».proof.Proof.Gen.Kernel
import proofs.«178410_j83141976916016_1_alg».proof.Proof.Gen.Kernel.Skeleton
import proofs.«178410_j83141976916016_1_alg».proof.Proof.Gen.Kernel.Launch
import proofs.«178410_j83141976916016_1_alg».proof.Proof.Gen.Kernel.Points
import proofs.«178410_j83141976916016_1_alg».proof.Proof.Gen.Kernel.Frame
import proofs.«178410_j83141976916016_1_alg».proof.Proof.Gen.KernelIdeal
import proofs.«178410_j83141976916016_1_alg».proof.Proof.Gen.KernelIdeal.Skeleton
import proofs.«178410_j83141976916016_1_alg».proof.Proof.Gen.KernelIdeal.Launch
import proofs.«178410_j83141976916016_1_alg».proof.Proof.Gen.KernelIdeal.Points
import proofs.«178410_j83141976916016_1_alg».proof.Proof.Gen.KernelIdeal.Frame
import proofs.«178410_j83141976916016_1_alg».proof.Proof.Gen.ReferenceIdeal
import proofs.«178410_j83141976916016_1_alg».proof.Proof.Gen.Pre_finite_inputs
import proofs.«178410_j83141976916016_1_alg».proof.Proof.Gen.KernelIdeal.Value
import proofs.«178410_j83141976916016_1_alg».proof.Proof.Gen.ReferenceIdeal.Run
import proofs.«178410_j83141976916016_1_alg».proof.Proof.Gen.ReferenceIdeal.Read
import proofs.«178410_j83141976916016_1_alg».proof.Proof.KernelValue
import proofs.«178410_j83141976916016_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, kernel and reference both end at the total of the row losses over 8192: the kernel by
    its blockwise running total, the reference by its one sum, of arrays that are the same. -/
theorem algebraic : Cert.algebraic_KernelIdeal_ReferenceIdeal := by
  intro m ρ m' ρ' _ hagree
  refine ⟨fun c => Cert.KernelIdeal.Total.result m c, Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, a3, a4, a5⟩ := hagree c
  rw [Cert.ReferenceIdeal.Read.val_main_v64_eq, Cert.ReferenceIdeal.RefValue.result_eq, a0, a1, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
